-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn {F : FTy → Type} [FloatOps F] (main_arg0 : FVec F S16384x2048 .f32) (main_arg1 : FVec F S8x2816x2048 .f32) (main_arg2 : FVec F S8x2048x1408 .f32) (main_arg3 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  main_v13
-- ==== Kernel.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S512x2048 : Shape := ⟨2, ![512, 2048]⟩
abbrev S1x128x2048 : Shape := ⟨3, ![1, 128, 2048]⟩
abbrev S1x2048x128 : Shape := ⟨3, ![1, 2048, 128]⟩
abbrev S128x2048 : Shape := ⟨2, ![128, 2048]⟩
abbrev S512x128 : Shape := ⟨2, ![512, 128]⟩
abbrev S2048x128 : Shape := ⟨2, ![2048, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2048x128, .f32⟩
  | .local _ .vmem, ⟨7, _⟩ => ⟨S1x2048x128, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v26 : BitVec 1 := Scalar.cmpi .eq arg2 c10_i32
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  dot_S512x2048_S128x2048_S512x128_1_1_0_0_n_n_wf : DotDims.WF S512x2048 S128x2048 S512x128 [1] [1] [0] [0] [] []
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x2816x2048.size a
  hwx0_1 : ∀ i : grid0.Coords, EltTy.bits .f32 = 32 ∨ (Rect.block (s := S8x2816x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x2816x2048.size a
  hwx0_2 : ∀ i : grid0.Coords, EltTy.bits .f32 = 32 ∨ (Rect.block (s := S8x2816x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x1408.size a
  hwx0_3 : ∀ i : grid0.Coords, EltTy.bits .f32 = 32 ∨ (Rect.block (s := S8x2048x1408) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S8x2048x2048 : Shape := ⟨3, ![8, 2048, 2048]⟩
abbrev S8x2048x2816 : Shape := ⟨3, ![8, 2048, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S8x2048x2048, .f32⟩
  | .hbm, ⟨5, _⟩ => ⟨S8x2048x2816, .f32⟩
  | .hbm, ⟨6, _⟩ => ⟨S8x2048x1408, .f32⟩
  | .hbm, ⟨7, _⟩ => ⟨S8x2048x1408, .f32⟩
  | .hbm, ⟨8, _⟩ => ⟨S8x2048x1408, .f32⟩
  | .hbm, ⟨9, _⟩ => ⟨S8x2048x1408, .f32⟩
  | .hbm, ⟨10, _⟩ => ⟨S_, .f32⟩
  | .hbm, ⟨11, _⟩ => ⟨S8x2048x1408, .f32⟩
  | .hbm, ⟨12, _⟩ => ⟨S8x2048x1408, .f32⟩
  | .hbm, ⟨13, _⟩ => ⟨S_, .f32⟩
  | .hbm, ⟨14, _⟩ => ⟨S8x2048x1408, .f32⟩
  | .hbm, ⟨15, _⟩ => ⟨S8x2048x1408, .f32⟩
  | .hbm, ⟨16, _⟩ => ⟨S8x2048x1408, .f32⟩
  | .hbm, ⟨17, _⟩ => ⟨S8x2048x1408, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x2816_S8x2048x1408_0_0_0 : S8x2048x2816.Slices ![0, 0, 0] S8x2048x1408
  slices_S8x2048x2816_S8x2048x1408_0_0_1408 : S8x2048x2816.Slices ![0, 0, 1408] S8x2048x1408
  bcast_S_S8x2048x1408 : S_.BroadcastsInDim S8x2048x1408 (![] : Fin 0 → Fin S8x2048x1408.rank)
  shapeCasts_S8x2048x2048_S16384x2048 : S8x2048x2048.ShapeCasts S16384x2048
  dot_S8x2048x2048_S8x2816x2048_S8x2048x2816_2_2_1_1_0_0_wf : DotDims.WF S8x2048x2048 S8x2816x2048 S8x2048x2816 [2] [2] [1] [1] [0] [0]
  dot_S8x2048x1408_S8x2048x1408_S8x2048x2048_2_2_1_1_0_0_wf : DotDims.WF S8x2048x1408 S8x2048x1408 S8x2048x2048 [2] [2] [1] [1] [0] [0]

variable [Facts₀]

def dot_S8x2048x2048_S8x2816x2048_S8x2048x2816_2_2_1_1_0_0 : DotDims S8x2048x2048 S8x2816x2048 S8x2048x2816 where
  lhsContracting := [2]
  rhsContracting := [2]
  lhsNonContracting := [1]
  rhsNonContracting := [1]
  lhsBatch := [0]
  rhsBatch := [0]
  wf := dot_S8x2048x2048_S8x2816x2048_S8x2048x2816_2_2_1_1_0_0_wf
def dot_S8x2048x1408_S8x2048x1408_S8x2048x2048_2_2_1_1_0_0 : DotDims S8x2048x1408 S8x2048x1408 S8x2048x2048 where
  lhsContracting := [2]
  rhsContracting := [2]
  lhsNonContracting := [1]
  rhsNonContracting := [1]
  lhsBatch := [0]
  rhsBatch := [0]
  wf := dot_S8x2048x1408_S8x2048x1408_S8x2048x2048_2_2_1_1_0_0_wf

class Facts : Prop extends Facts₀ where

variable [Facts]
-- ==== Proof.K.Runs.lean ====
/-
  What the three runs of the kernel body share.

  The grid is 8 experts × 4 row tiles × 11 feature tiles, walked with the feature tile fastest, so a point `t` is at
  feature tile `t mod 11`. The body zeroes its accumulator (a scratch buffer) when the feature tile is 0, adds one
  feature tile's contribution at every point, and copies the accumulator to the output block when the feature tile
  is 10. Hence three kinds of point: FIRST (tile 0), MIDDLE (tiles 1..9), LAST (tile 10); the output window is
  touched, and written back, only at LAST points.

  Here: the arrays as the region finds them (the launch contents: no host operation precedes the region), each
  window's block read off its array, the two branch conditions in closed form over the grid, where the output
  window is idle, and the memrefs the body is called with.
-/
import proofs.«159608_j22162031247683_1_alg».proof.Proof.Gen.Kernel.Launch
import proofs.«159608_j22162031247683_1_alg».proof.Proof.Gen.Kernel.Skeleton
import proofs.«159608_j22162031247683_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data whose array is the entry contents and whose body leaves the
    block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "The feature tile is 0": the condition under which the body zeroes its accumulator. -/
abbrev cond0_0 (i : grid0.Coords) : Prop := (Scalar.cmpi .ne (Scalar.extui (Scalar.cmpi .eq (BitVec.ofNat 32 (i 2).val) 0#32)) 0#32) = 1#1
/-- It holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)

/-- "The feature tile is 10": the condition under which the body copies its accumulator out. -/
abbrev cond0_1 (i : grid0.Coords) : Prop := k0_cond2 i = 1#1
/-- It holds at the points ≡ 10 (mod 11). -/
theorem hcond0_1 : ∀ t : Fin cfg0.N, cond0_1 (grid0.coords t) ↔ t.val % 11 = 10 :=
  (by decide +kernel : ∀ t : Fin grid0.N, cond0_1 (grid0.coords t) ↔ t.val % 11 = 10)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At FIRST and MIDDLE points the body stores nothing into the output window, and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At LAST points it stores into it. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S512x2048 .f32 := (Memref.whole cc0_stg4_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S512x2048 .f32 := Memref.whole cc0_scratch0
abbrev VS0_0 : View sig .tc .vmem S512x2048 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.RunA.lean ====
/-
  The kernel body at a FIRST point (feature tile 0): the accumulator, found at anything, is zeroed, then one feature
  tile's contribution is added to it; the output window's buffer is not touched. The run is found by symbolic
  execution; what the stores leave in the accumulator (a list of pieces, last first) is its witness.
-/
import proofs.«159608_j22162031247683_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at contents `xi4` handed back untouched, the
    accumulator's at anything — the body runs to the continuation holding the inputs' as they were, the output's as it
    was, and the accumulator with the pieces `LS0` written. -/
noncomputable def kernelRun0_A (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨[], ?_, fun xi4 E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.RunB.lean ====
/-
  The kernel body at a MIDDLE point (feature tiles 1..9): one feature tile's contribution is added to the
  accumulator, found at what the point before left; the output window's buffer is not touched.
-/
import proofs.«159608_j22162031247683_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at contents `xi4` handed back untouched, the
    accumulator's at `xs0` — the body runs to the continuation holding the inputs' and the output's as they were and
    the accumulator with the pieces `LS0` written. -/
noncomputable def kernelRun0_B (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨[], ?_, fun xi4 E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.RunC.lean ====
/-
  The kernel body at a LAST point (feature tile 10): the last feature tile's contribution is added to the
  accumulator, found at what the point before left, and the accumulator is copied whole into the output window's
  buffer, found at anything.
-/
import proofs.«159608_j22162031247683_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at anything, the accumulator's at `xs0` —
    the body runs to the continuation holding the inputs' as they were, the output's with the pieces `L4` written
    and the accumulator with the pieces `LS0` written. -/
noncomputable def kernelRun0_C (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨?_, ?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.Frame.lean ====
/-
  The frame of the kernel region, up to its launch: what the three kinds of point leave in the output window's
  buffer and in the accumulator, those contents by recursion over the grid's points, the proof data of the one
  pipeline, and the body obligation at a generic point (a case split on the kind of point, each leaf that kind's run).
-/
import proofs.«159608_j22162031247683_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves in the output window's buffer and in the accumulator -/

/-- A FIRST point stores nothing into the output window: a placeholder nothing consults. -/
def out0_A_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) : Vec F S512x2048 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- A FIRST point's stores into the accumulator cover it. -/
theorem scover0_A_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) (y : S512x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S512x2048.size (by sl_kernel_rfl) y

/-- What a FIRST point leaves in the accumulator. -/
def sout0_A_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) : Vec F S512x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- A MIDDLE point stores nothing into the output window: a placeholder nothing consults. -/
def out0_B_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- A MIDDLE point's store into the accumulator covers it. -/
theorem scover0_B_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S512x2048.size (by sl_kernel_rfl) y

/-- What a MIDDLE point leaves in the accumulator, over what the point before left (`xs0`). -/
def sout0_B_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- A LAST point's store into the output window covers its block. -/
theorem cover0_C_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S512x2048.size (by sl_kernel_rfl) y

/-- What a LAST point leaves in the output window's buffer. -/
def out0_C_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- A LAST point's store into the accumulator covers it. -/
theorem scover0_C_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S512x2048.size (by sl_kernel_rfl) y

/-- What a LAST point leaves in the accumulator. -/
def sout0_C_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the output window's buffer and the accumulator hold after each point -/

/-- THE ACCUMULATION, by recursion on the point: the pair (output window's buffer, accumulator) after the body at
    position `n` — the kind of point the closed forms select, run at the point's memrefs and input blocks, the
    accumulator read at what position `n - 1` left. -/
def outsAt0 (c : Dev nD) : (n : ℕ) → n < cfg0.N → Vec F S512x2048 .f32 × Vec F S512x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 11 = 0 then
      if h1 : (n + 1) % 11 = 10 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 11 = 10 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a FIRST point. -/
theorem outsAt0_A (c : Dev nD) (t : Fin cfg0.N) (h0 : t.val % 11 = 0) (h1 : ¬t.val % 11 = 10) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a MIDDLE point, over what the point before left. -/
theorem outsAt0_B (c : Dev nD) (t : Fin cfg0.N) (h0 : ¬t.val % 11 = 0) (h1 : ¬t.val % 11 = 10) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a LAST point, over what the point before left. -/
theorem outsAt0_C (c : Dev nD) (t : Fin cfg0.N) (h0 : ¬t.val % 11 = 0) (h1 : t.val % 11 = 10) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the accumulator at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data on core `c`: the arrays as the region finds them; after the body at point `t` each input's
    buffer at its block and the output's at `outsAt0`; the invariant `PhiS`; nothing owed. The two windows that
    read the first-projection weights share that array: each holds half of it; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare := by dsimp only [dats]
theorem q1_eq (c : Dev nD) : (dats m 0 c).q 1 = fullShare.left := by dsimp only [dats]
theorem q2_eq (c : Dev nD) : (dats m 0 c).q 2 = fullShare.right := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which kind of point it is; the
    invariant hands the body the accumulator at what the point before left (at anything at the very first point)
    and takes it back at this point's contents; the output window's buffer is handed back untouched except at a
    LAST point, where it is left at the accumulator's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 352 := lt_of_lt_of_eq t.isLt (show cfg0.N = 352 from N_0)
  by_cases h0 : t.val % 11 = 0
  · by_cases h1 : t.val % 11 = 10
    · exfalso; omega
    · -- a FIRST point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 11 = 10
    · -- a LAST point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      have hz : t.val ≠ 0 := fun hz => by rw [hz] at h1; omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- a MIDDLE point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      have hz : t.val ≠ 0 := fun hz => by rw [hz] at h0; omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]

/-- After the last point the invariant gives the accumulator back, its contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 352 := N_0; omega), scopedRest0_owns]
  iintro HS0
  iexists _; iexact HS0

end Cert.Kernel.Hand

end
-- ==== Proof.K.Split.lean ====
/-
  How the four distinct buffers behind the five windows' arrays make the proof data's arrays at entry.

  The pipeline's windows read the token array, the first projection's weights TWICE (the gate rows through one
  window, the other rows through another), the second projection's weights, and write the result array. The
  buffers behind them are four: the shared weight array's full-share points-to is split into its two halves,
  one for each of the two windows on it; every other window holds its own array at the full share.
-/
import proofs.«159608_j22162031247683_1_alg».proof.Proof.Gen.Kernel.Launch

noncomputable section

namespace Cert.Kernel.Hand

open Cert.Kernel Cert.Kernel.Gen
open Idealize.ShloMosaic Idealize.ShloMosaic.Pipeline Idealize.ShloMosaic.TcCoe
open Idealize.SL Idealize.SL.RA
open Idealize.SL.BI (sProp bigSep bigSepL bigSep_eq_bigSepL_of_eq)
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The buffers behind the windows' arrays — the token array, the first projection's weights, the second
    projection's weights and the result array, each whole at the full share at contents `V` — yield the proof
    data's arrays at entry, when the data hold the shared weight array at its left half through window 1 and at
    its right half through window 2, and every other input at the full share (the output window's share is full
    by definition). -/
theorem arrays_split (c : Dev nD) (V : (b : Ref sig .tc) → Buf (Elt F) ((c.tc : Thread nD τ).loc b))
    (dat : Dat τ (Elt F) Unit ℕ (UR sig nD τ) ℕ cfg0 c) (hA : ∀ w, dat.A w = V (arrRef spec0 w))
    (hq1 : dat.q 1 = fullShare.left) (hq2 : dat.q 2 = fullShare.right) (hq0 : dat.q 0 = fullShare) (hq3 : dat.q 3 = fullShare) :
    (arrBufs spec0 c V : sProp 𝕄) ⊢ dat.arrays (dat.arrAt · 0) := by
  -- each window's share
  have hs0 : dat.share 0 = fullShare := (if_neg (show ¬ ((cfg0.win 0).isOut = true) from by decide)).trans hq0
  have hs1 : dat.share 1 = fullShare.left := (if_neg (show ¬ ((cfg0.win 1).isOut = true) from by decide)).trans hq1
  have hs2 : dat.share 2 = fullShare.right := (if_neg (show ¬ ((cfg0.win 2).isOut = true) from by decide)).trans hq2
  have hs3 : dat.share 3 = fullShare := (if_neg (show ¬ ((cfg0.win 3).isOut = true) from by decide)).trans hq3
  have hs4 : dat.share 4 = fullShare := if_pos (show (cfg0.win 4).isOut = true from by decide)
  -- each window's array is a whole buffer, held at the entry contents
  have hsh : ∀ w, ((cfg0.win w).arr.view.loc (c.tc : Thread nD τ) ↦[(cfg0.win w).arr.view.set]{dat.share w} dat.arrAt w 0 : sProp 𝕄)
      = ((c.tc : Thread nD τ).loc (arrRef spec0 w) ↦{dat.share w} V (arrRef spec0 w)) := fun w => by
    rw [(arr_whole0 w).set_eq_univ]
    show (_ ↦{_} dat.A w) = _
    rw [hA w]
  unfold arrBufs Dat.arrays
  rw [bigSep_W0, hsh 0, hsh 1, hsh 2, hsh 3, hsh 4, hs0, hs1, hs2, hs3, hs4,
    bigSep_eq_bigSepL_of_eq [main_arg0, main_arg1, main_arg2, main_v0] (by decide) (by decide)]
  show iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_v0) ↦{fullShare} V main_v0))
      ⊢ (iprop((((c.tc : Thread nD τ).loc main_arg0) ↦{fullShare} V main_arg0)
        ∗ (((c.tc : Thread nD τ).loc main_arg1) ↦{fullShare.left} V main_arg1)
        ∗ (((c.tc : Thread nD τ).loc main_arg1) ↦{fullShare.right} V main_arg1)
        ∗ (((c.tc : Thread nD τ).loc main_arg2) ↦{fullShare} V main_arg2)
        ∗ (((c.tc : Thread nD τ).loc main_v0) ↦{fullShare} V main_v0)) : sProp 𝕄)
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

end Cert.Kernel.Hand

end
-- ==== Proof.LibSharedArrays.lean ====
/-
  The launch of a one-region pipeline kernel whose INPUT WINDOWS MAY SHARE AN ARRAY, in the shape of the
  library's frame run (`Pipeline.θ_run_frame_track`).

  A kernel handed one array through several input windows (a packed weight read by two windows at different
  blocks) has no `WinFacts`: its windows' arrays are not pairwise distinct, and the full share of the shared
  array cannot be every window's. What replaces distinctness is the statement of HOW the distinct buffers behind
  the arrays, each whole at the full share, make the proof data's `arrays` at entry (`hsplit`): the shared
  array's points-to is split among the windows on it, each window holding the share its proof data name.
  Everything else is as in the frame run: the pipeline's ghost state is the whole user algebra, the kernel has
  no semaphore of its own, the unscoped buffers that are no window's array bypass the region and are read back
  unchanged, and every array ends at what the library computes from the proof data (`FramePost`).

  The region invariant is entered from the scoped rest alone (`hin`) and yields it back (`hout`): the body of
  such a kernel does not touch the generator register.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- THE FRAME RUN of a one-region pipeline kernel whose input windows may share arrays (`WinFacts₀`: everything the
    launch needs of the windows but the arrays' distinctness). From any memory with zero counters every weakly fair
    execution of @main on the TensorCores terminates, and every final state satisfies `FramePost`: each window's
    array holds `Dat.arrAt w N` (windows on one array end holding the same contents), every other unscoped buffer
    what it held at the region's entry (`V`). The certificate supplies the proof data, the body obligation, @main up
    to the region (`hmain`), and `hsplit`: the distinct buffers behind the arrays, whole at the full share at `V`,
    yield the proof data's arrays at entry, each window at its share. The invariant is entered from the scoped rest
    (`hin`) and gives it back after the last point (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end FrameShared

end Pipeline

end Idealize.ShloMosaic

end
-- ==== Proof.K.Launch.lean ====
/-
  The launch of the kernel region and the frame claim. The two windows that read the first-projection weights are
  windows on ONE array, so the run goes through the launch theorem for input windows that share an array: the
  array's points-to is dealt to the two windows half and half. The run's post names the result array (what the
  pipeline's write-backs leave, computed from the proof data) and says every argument array ends unchanged.
-/
import proofs.«159608_j22162031247683_1_alg».proof.Proof.K.Frame
import proofs.«159608_j22162031247683_1_alg».proof.Proof.K.Split
import proofs.«159608_j22162031247683_1_alg».proof.Proof.LibSharedArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region alone, entered at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

set_option backward.isDefEq.respectTransparency.types false in
/-- Every weakly fair execution of @main terminates; every final state has each window's array at what the library
    computes from the proof data, and every other unscoped buffer as it was. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (fun c => (body_obligation m c).loose) (fun _ _ => rfl) (V m) (hmain m Variants.none)
    (fun c => arrays_split c (V m c) (dats m 0 c) (A_eq m c) (q1_eq m c) (q2_eq m c) (q0_eq m c) (q3_eq m c))
    (hin m) (hout m)

/-- The token-count argument is no window's array and is not scoped: it bypasses the region. -/
theorem arg3_rest : main_arg3 ∈ Pipeline.restRefs sig spec0 :=
  Pipeline.mem_restRefs_of main_arg3 rfl (by decide)

/-- The run with the result array named and the four argument arrays unchanged. -/
theorem run_value : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 4,
     ((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3)),
     (h c).2 main_arg3 arg3_rest⟩) (run_main m ρ)

/-- THE FRAME: the program runs, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KI.Runs.lean ====
/-
  What the three runs of the kernel body share.

  The grid is 8 experts × 4 row tiles × 11 feature tiles, walked with the feature tile fastest, so a point `t` is at
  feature tile `t mod 11`. The body zeroes its accumulator (a scratch buffer) when the feature tile is 0, adds one
  feature tile's contribution at every point, and copies the accumulator to the output block when the feature tile
  is 10. Hence three kinds of point: FIRST (tile 0), MIDDLE (tiles 1..9), LAST (tile 10); the output window is
  touched, and written back, only at LAST points.

  Here: the arrays as the region finds them (the launch contents: no host operation precedes the region), each
  window's block read off its array, the two branch conditions in closed form over the grid, where the output
  window is idle, and the memrefs the body is called with.
-/
import proofs.«159608_j22162031247683_1_alg».proof.Proof.Gen.KernelIdeal.Launch
import proofs.«159608_j22162031247683_1_alg».proof.Proof.Gen.KernelIdeal.Skeleton
import proofs.«159608_j22162031247683_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data whose array is the entry contents and whose body leaves the
    block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "The feature tile is 0": the condition under which the body zeroes its accumulator. -/
abbrev cond0_0 (i : grid0.Coords) : Prop := (Scalar.cmpi .ne (Scalar.extui (Scalar.cmpi .eq (BitVec.ofNat 32 (i 2).val) 0#32)) 0#32) = 1#1
/-- It holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)

/-- "The feature tile is 10": the condition under which the body copies its accumulator out. -/
abbrev cond0_1 (i : grid0.Coords) : Prop := k0_cond2 i = 1#1
/-- It holds at the points ≡ 10 (mod 11). -/
theorem hcond0_1 : ∀ t : Fin cfg0.N, cond0_1 (grid0.coords t) ↔ t.val % 11 = 10 :=
  (by decide +kernel : ∀ t : Fin grid0.N, cond0_1 (grid0.coords t) ↔ t.val % 11 = 10)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At FIRST and MIDDLE points the body stores nothing into the output window, and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At LAST points it stores into it. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S512x2048 .f32 := (Memref.whole cc0_stg4_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S512x2048 .f32 := Memref.whole cc0_scratch0
abbrev VS0_0 : View sig .tc .vmem S512x2048 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.RunA.lean ====
/-
  The kernel body at a FIRST point (feature tile 0): the accumulator, found at anything, is zeroed, then one feature
  tile's contribution is added to it; the output window's buffer is not touched. The run is found by symbolic
  execution; what the stores leave in the accumulator (a list of pieces, last first) is its witness.
-/
import proofs.«159608_j22162031247683_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at contents `xi4` handed back untouched, the
    accumulator's at anything — the body runs to the continuation holding the inputs' as they were, the output's as it
    was, and the accumulator with the pieces `LS0` written. -/
noncomputable def kernelRun0_A (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨[], ?_, fun xi4 E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.RunB.lean ====
/-
  The kernel body at a MIDDLE point (feature tiles 1..9): one feature tile's contribution is added to the
  accumulator, found at what the point before left; the output window's buffer is not touched.
-/
import proofs.«159608_j22162031247683_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at contents `xi4` handed back untouched, the
    accumulator's at `xs0` — the body runs to the continuation holding the inputs' and the output's as they were and
    the accumulator with the pieces `LS0` written. -/
noncomputable def kernelRun0_B (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨[], ?_, fun xi4 E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.RunC.lean ====
/-
  The kernel body at a LAST point (feature tile 10): the last feature tile's contribution is added to the
  accumulator, found at what the point before left, and the accumulator is copied whole into the output window's
  buffer, found at anything.
-/
import proofs.«159608_j22162031247683_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs' at their contents, the output's at anything, the accumulator's at `xs0` —
    the body runs to the continuation holding the inputs' as they were, the output's with the pieces `L4` written
    and the accumulator with the pieces `LS0` written. -/
noncomputable def kernelRun0_C (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__grouped_mlp_kernel i arg3 harg3 arg4 harg4 arg5 harg5 arg6 harg6 arg7 harg7 arg8 harg8) K } := by
  refine ⟨?_, ?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.Frame.lean ====
/-
  The frame of the kernel region, up to its launch: what the three kinds of point leave in the output window's
  buffer and in the accumulator, those contents by recursion over the grid's points, the proof data of the one
  pipeline, and the body obligation at a generic point (a case split on the kind of point, each leaf that kind's run).
-/
import proofs.«159608_j22162031247683_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves in the output window's buffer and in the accumulator -/

/-- A FIRST point stores nothing into the output window: a placeholder nothing consults. -/
def out0_A_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) : Vec F S512x2048 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- A FIRST point's stores into the accumulator cover it. -/
theorem scover0_A_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) (y : S512x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S512x2048.size (by sl_kernel_rfl) y

/-- What a FIRST point leaves in the accumulator. -/
def sout0_A_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) : Vec F S512x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- A MIDDLE point stores nothing into the output window: a placeholder nothing consults. -/
def out0_B_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- A MIDDLE point's store into the accumulator covers it. -/
theorem scover0_B_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S512x2048.size (by sl_kernel_rfl) y

/-- What a MIDDLE point leaves in the accumulator, over what the point before left (`xs0`). -/
def sout0_B_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- A LAST point's store into the output window covers its block. -/
theorem cover0_C_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S512x2048.size (by sl_kernel_rfl) y

/-- What a LAST point leaves in the output window's buffer. -/
def out0_C_4 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- A LAST point's store into the accumulator covers it. -/
theorem scover0_C_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S512x2048.size (by sl_kernel_rfl) y

/-- What a LAST point leaves in the accumulator. -/
def sout0_C_0 (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) : Vec F S512x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the output window's buffer and the accumulator hold after each point -/

/-- THE ACCUMULATION, by recursion on the point: the pair (output window's buffer, accumulator) after the body at
    position `n` — the kind of point the closed forms select, run at the point's memrefs and input blocks, the
    accumulator read at what position `n - 1` left. -/
def outsAt0 (c : Dev nD) : (n : ℕ) → n < cfg0.N → Vec F S512x2048 .f32 × Vec F S512x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 11 = 0 then
      if h1 : (n + 1) % 11 = 10 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 11 = 10 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a FIRST point. -/
theorem outsAt0_A (c : Dev nD) (t : Fin cfg0.N) (h0 : t.val % 11 = 0) (h1 : ¬t.val % 11 = 10) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a MIDDLE point, over what the point before left. -/
theorem outsAt0_B (c : Dev nD) (t : Fin cfg0.N) (h0 : ¬t.val % 11 = 0) (h1 : ¬t.val % 11 = 10) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a LAST point, over what the point before left. -/
theorem outsAt0_C (c : Dev nD) (t : Fin cfg0.N) (h0 : ¬t.val % 11 = 0) (h1 : t.val % 11 = 10) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the accumulator at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data on core `c`: the arrays as the region finds them; after the body at point `t` each input's
    buffer at its block and the output's at `outsAt0`; the invariant `PhiS`; nothing owed. The two windows that
    read the first-projection weights share that array: each holds half of it; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare := by dsimp only [dats]
theorem q1_eq (c : Dev nD) : (dats m 0 c).q 1 = fullShare.left := by dsimp only [dats]
theorem q2_eq (c : Dev nD) : (dats m 0 c).q 2 = fullShare.right := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which kind of point it is; the
    invariant hands the body the accumulator at what the point before left (at anything at the very first point)
    and takes it back at this point's contents; the output window's buffer is handed back untouched except at a
    LAST point, where it is left at the accumulator's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 352 := lt_of_lt_of_eq t.isLt (show cfg0.N = 352 from N_0)
  by_cases h0 : t.val % 11 = 0
  · by_cases h1 : t.val % 11 = 10
    · exfalso; omega
    · -- a FIRST point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 11 = 10
    · -- a LAST point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      have hz : t.val ≠ 0 := fun hz => by rw [hz] at h1; omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- a MIDDLE point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      have hz : t.val ≠ 0 := fun hz => by rw [hz] at h0; omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]

/-- After the last point the invariant gives the accumulator back, its contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 352 := N_0; omega), scopedRest0_owns]
  iintro HS0
  iexists _; iexact HS0

end Cert.KernelIdeal.Hand

end
-- ==== Proof.KI.Split.lean ====
/-
  How the four distinct buffers behind the five windows' arrays make the proof data's arrays at entry.

  The pipeline's windows read the token array, the first projection's weights TWICE (the gate rows through one
  window, the other rows through another), the second projection's weights, and write the result array. The
  buffers behind them are four: the shared weight array's full-share points-to is split into its two halves,
  one for each of the two windows on it; every other window holds its own array at the full share.
-/
import proofs.«159608_j22162031247683_1_alg».proof.Proof.Gen.KernelIdeal.Launch

noncomputable section

namespace Cert.KernelIdeal.Hand

open Cert.KernelIdeal Cert.KernelIdeal.Gen
open Idealize.ShloMosaic Idealize.ShloMosaic.Pipeline Idealize.ShloMosaic.TcCoe
open Idealize.SL Idealize.SL.RA
open Idealize.SL.BI (sProp bigSep bigSepL bigSep_eq_bigSepL_of_eq)
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The buffers behind the windows' arrays — the token array, the first projection's weights, the second
    projection's weights and the result array, each whole at the full share at contents `V` — yield the proof
    data's arrays at entry, when the data hold the shared weight array at its left half through window 1 and at
    its right half through window 2, and every other input at the full share (the output window's share is full
    by definition). -/
theorem arrays_split (c : Dev nD) (V : (b : Ref sig .tc) → Buf (Elt F) ((c.tc : Thread nD τ).loc b))
    (dat : Dat τ (Elt F) Unit ℕ (UR sig nD τ) ℕ cfg0 c) (hA : ∀ w, dat.A w = V (arrRef spec0 w))
    (hq1 : dat.q 1 = fullShare.left) (hq2 : dat.q 2 = fullShare.right) (hq0 : dat.q 0 = fullShare) (hq3 : dat.q 3 = fullShare) :
    (arrBufs spec0 c V : sProp 𝕄) ⊢ dat.arrays (dat.arrAt · 0) := by
  -- each window's share
  have hs0 : dat.share 0 = fullShare := (if_neg (show ¬ ((cfg0.win 0).isOut = true) from by decide)).trans hq0
  have hs1 : dat.share 1 = fullShare.left := (if_neg (show ¬ ((cfg0.win 1).isOut = true) from by decide)).trans hq1
  have hs2 : dat.share 2 = fullShare.right := (if_neg (show ¬ ((cfg0.win 2).isOut = true) from by decide)).trans hq2
  have hs3 : dat.share 3 = fullShare := (if_neg (show ¬ ((cfg0.win 3).isOut = true) from by decide)).trans hq3
  have hs4 : dat.share 4 = fullShare := if_pos (show (cfg0.win 4).isOut = true from by decide)
  -- each window's array is a whole buffer, held at the entry contents
  have hsh : ∀ w, ((cfg0.win w).arr.view.loc (c.tc : Thread nD τ) ↦[(cfg0.win w).arr.view.set]{dat.share w} dat.arrAt w 0 : sProp 𝕄)
      = ((c.tc : Thread nD τ).loc (arrRef spec0 w) ↦{dat.share w} V (arrRef spec0 w)) := fun w => by
    rw [(arr_whole0 w).set_eq_univ]
    show (_ ↦{_} dat.A w) = _
    rw [hA w]
  unfold arrBufs Dat.arrays
  rw [bigSep_W0, hsh 0, hsh 1, hsh 2, hsh 3, hsh 4, hs0, hs1, hs2, hs3, hs4,
    bigSep_eq_bigSepL_of_eq [main_arg0, main_arg1, main_arg2, main_v0] (by decide) (by decide)]
  show iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_v0) ↦{fullShare} V main_v0))
      ⊢ (iprop((((c.tc : Thread nD τ).loc main_arg0) ↦{fullShare} V main_arg0)
        ∗ (((c.tc : Thread nD τ).loc main_arg1) ↦{fullShare.left} V main_arg1)
        ∗ (((c.tc : Thread nD τ).loc main_arg1) ↦{fullShare.right} V main_arg1)
        ∗ (((c.tc : Thread nD τ).loc main_arg2) ↦{fullShare} V main_arg2)
        ∗ (((c.tc : Thread nD τ).loc main_v0) ↦{fullShare} V main_v0)) : sProp 𝕄)
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

end Cert.KernelIdeal.Hand

end
-- ==== Proof.KI.Launch.lean ====
/-
  The launch of the kernel region and the frame claim. The two windows that read the first-projection weights are
  windows on ONE array, so the run goes through the launch theorem for input windows that share an array: the
  array's points-to is dealt to the two windows half and half. The run's post names the result array (what the
  pipeline's write-backs leave, computed from the proof data) and says every argument array ends unchanged.
-/
import proofs.«159608_j22162031247683_1_alg».proof.Proof.KI.Frame
import proofs.«159608_j22162031247683_1_alg».proof.Proof.KI.Split
import proofs.«159608_j22162031247683_1_alg».proof.Proof.LibSharedArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region alone, entered at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

set_option backward.isDefEq.respectTransparency.types false in
/-- Every weakly fair execution of @main terminates; every final state has each window's array at what the library
    computes from the proof data, and every other unscoped buffer as it was. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (fun c => (body_obligation m c).loose) (fun _ _ => rfl) (V m) (hmain m Variants.none)
    (fun c => arrays_split c (V m c) (dats m 0 c) (A_eq m c) (q1_eq m c) (q2_eq m c) (q0_eq m c) (q3_eq m c))
    (hin m) (hout m)

/-- The token-count argument is no window's array and is not scoped: it bypasses the region. -/
theorem arg3_rest : main_arg3 ∈ Pipeline.restRefs sig spec0 :=
  Pipeline.mem_restRefs_of main_arg3 rfl (by decide)

/-- The run with the result array named and the four argument arrays unchanged. -/
theorem run_value : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 4,
     ((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3)),
     (h c).2 main_arg3 arg3_rest⟩) (run_main m ρ)

/-- THE FRAME: the program runs, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.KI.Pieces.lean ====
/-
  The pieces the three runs found, named, and the four input blocks read at an index.

  Each kind of point ends with ONE whole-buffer store into the accumulator (preceded, at a FIRST point, by the
  zeroing store, which it covers), and a LAST point copies the accumulator whole into the output window's buffer:
  so what a point leaves is the body's arithmetic `k0_pay2` of the four input blocks and of the accumulator it
  found — the zero splat `k0_pay1` at a FIRST point.

  A point `t` of the grid (8 experts × 4 row tiles × 11 feature tiles, feature tile fastest) is at expert
  `t / 44`, row tile `(t / 11) mod 4`, feature tile `t mod 11`; its blocks are rows and columns of the argument arrays.
-/
import proofs.«159608_j22162031247683_1_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The found pieces -/

/-- The offsets of a whole-buffer access of a rank-2 buffer are all zero. -/
private theorem off2_zero : (![0, 0] : Fin S512x2048.rank → ℕ) = fun _ => 0 := by
  funext a; match a with | ⟨0, _⟩ => rfl | ⟨1, _⟩ => rfl
/-- The offsets of a whole-buffer access of a rank-3 buffer are all zero. -/
private theorem off3_zero : (![0, 0, 0] : Fin S1x128x2048.rank → ℕ) = fun _ => 0 := by
  funext a; match a with | ⟨0, _⟩ => rfl | ⟨1, _⟩ => rfl | ⟨2, _⟩ => rfl

theorem sout0_A_0_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .f32) (x1 : Vec F S1x128x2048 .f32) (x2 : Vec F S1x128x2048 .f32) (x3 : Vec F S1x2048x128 .f32) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) off2_zero, View.readCov_unit_zero (S := S512x2048) _ off2_zero]
  simp only [View.readAt_eq_ld, harg3.read_unread, harg4.read_unread, harg5.read_unread, harg6.read_unread, harg8.read_unread,
    View.ld_unit_zero (S := S512x2048) off2_zero, View.ld_unit_zero (S := S1x128x2048) off3_zero, View.ld_unit_zero (S := S1x2048x128) off3_zero]

theorem sout0_B_0_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S1x128x2048 .f32) (x2 : Vec F S1x128x2048 .f32) (x3 : Vec F S1x2048x128 .f32) (xs0 : Vec F S512x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x2048) off2_zero]
  simp only [View.readAt_eq_ld, harg3.read_unread, harg4.read_unread, harg5.read_unread, harg6.read_unread, harg8.read_unread,
    View.ld_unit_zero (S := S512x2048) off2_zero, View.ld_unit_zero (S := S1x128x2048) off3_zero, View.ld_unit_zero (S := S1x2048x128) off3_zero]

theorem sout0_C_0_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) off2_zero]
  simp only [View.readAt_eq_ld, harg3.read_unread, harg4.read_unread, harg5.read_unread, harg6.read_unread, harg8.read_unread,
    View.ld_unit_zero (S := S512x2048) off2_zero, View.ld_unit_zero (S := S1x128x2048) off3_zero, View.ld_unit_zero (S := S1x2048x128) off3_zero]

theorem out0_C_4_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .f32) (x1 : Vec F S1x128x2048 .f32) (x2 : Vec F S1x128x2048 .f32) (x3 : Vec F S1x2048x128 .f32) (xs0 : Vec F S512x2048 .f32) :
    out0_C_4 c i arg3 harg3 arg4 harg4 arg5 harg5 arg6 harg6 arg7 harg7 arg8 harg8 hc0 hc1 x0 x1 x2 x3 xs0 = k0_pay2 x0 x1 x2 x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) off2_zero, View.readCov_unit_zero (S := S512x2048) _ off2_zero]
  simp only [View.readAt_eq_ld, harg3.read_unread, harg4.read_unread, harg5.read_unread, harg6.read_unread, harg8.read_unread,
    View.ld_unit_zero (S := S512x2048) off2_zero, View.ld_unit_zero (S := S1x128x2048) off3_zero, View.ld_unit_zero (S := S1x2048x128) off3_zero]

/-! ## A point's coordinates and its input blocks -/

theorem lt_N (t : Fin cfg0.N) : t.val < 352 := lt_of_lt_of_eq t.isLt (show cfg0.N = 352 from N_0)

/-- The expert of point `t`. -/
def eOf (t : Fin cfg0.N) : Fin 8 := ⟨t.val / 44, by have := lt_N t; omega⟩
/-- Its row tile. -/
def mtOf (t : Fin cfg0.N) : Fin 4 := ⟨t.val / 11 % 4, by omega⟩
/-- Its feature tile. -/
def ftOf (t : Fin cfg0.N) : Fin 11 := ⟨t.val % 11, by omega⟩
/-- Row `p` of the point's row tile, as a row of its expert's group of 2048. -/
def rowIn (t : Fin cfg0.N) (p : Fin 512) : Fin 2048 := ⟨(mtOf t).val * 512 + p.val, by have := (mtOf t).isLt; omega⟩

/-- The four input blocks at point `t`, at their literal types. -/
abbrev xblk (c : Dev nD) (t : Fin cfg0.N) : Vec F S512x2048 .f32 := iblk m c 0 t
abbrev gblk (c : Dev nD) (t : Fin cfg0.N) : Vec F S1x128x2048 .f32 := iblk m c 1 t
abbrev ublk (c : Dev nD) (t : Fin cfg0.N) : Vec F S1x128x2048 .f32 := iblk m c 2 t
abbrev dblk (c : Dev nD) (t : Fin cfg0.N) : Vec F S1x2048x128 .f32 := iblk m c 3 t

/-- The block index maps in closed form, decided over the grid: the token window's block is
    (expert · 4 + row tile, 0) … -/
private theorem idx_w0 : ∀ t : Fin cfg0.N, win0_0.index t (0 : Fin 2) = t.val / 11 ∧ win0_0.index t (1 : Fin 2) = 0 :=
  (by decide +kernel : ∀ t : Fin grid0.N, _)
/-- … the gate-half weight window's (expert, feature tile, 0) … -/
private theorem idx_w1 : ∀ t : Fin cfg0.N, win0_1.index t (0 : Fin 3) = t.val / 44 ∧ win0_1.index t (1 : Fin 3) = t.val % 11
    ∧ win0_1.index t (2 : Fin 3) = 0 :=
  (by decide +kernel : ∀ t : Fin grid0.N, _)
/-- … the other half's (expert, 11 + feature tile, 0) … -/
private theorem idx_w2 : ∀ t : Fin cfg0.N, win0_2.index t (0 : Fin 3) = t.val / 44 ∧ win0_2.index t (1 : Fin 3) = 11 + t.val % 11
    ∧ win0_2.index t (2 : Fin 3) = 0 :=
  (by decide +kernel : ∀ t : Fin grid0.N, _)
/-- … and the second-projection weight window's (expert, 0, feature tile). -/
private theorem idx_w3 : ∀ t : Fin cfg0.N, win0_3.index t (0 : Fin 3) = t.val / 44 ∧ win0_3.index t (1 : Fin 3) = 0
    ∧ win0_3.index t (2 : Fin 3) = t.val % 11 :=
  (by decide +kernel : ∀ t : Fin grid0.N, _)

/-- The token block: row `p` is token row `e·2048 + (row tile)·512 + p`. -/
theorem xblk_apply (c : Dev nD) (t : Fin cfg0.N) (p : Fin 512) (j : Fin 2048) :
    xblk m c t (ix2 p j) = m ((c.tc : Thread nD τ).loc main_arg0) (ix2 (⟨(eOf t).val * 2048 + (rowIn t p).val, by have := (eOf t).isLt; have := (rowIn t p).isLt; omega⟩ : Fin 16384) j) := by
  obtain ⟨e0, e1⟩ := idx_w0 t
  have ht := lt_N t
  show V m c main_arg0 (((cfg0.win 0).blk t).view.emb (ix2 p j)) = _
  refine congrArg (V m c main_arg0) (funext fun a => Fin.ext ?_)
  match a with
  | ⟨0, _⟩ => show win0_0.index t (0 : Fin 2) * 512 + 1 * p.val = t.val / 44 * 2048 + (t.val / 11 % 4 * 512 + p.val); omega
  | ⟨1, _⟩ => show win0_0.index t (1 : Fin 2) * 2048 + 1 * j.val = j.val; omega

/-- The gate-half weight block: row `k` is first-projection feature `(feature tile)·128 + k` of the expert. -/
theorem gblk_apply (c : Dev nD) (t : Fin cfg0.N) (k : Fin 128) (j : Fin 2048) :
    gblk m c t (ix3 0 k j) = m ((c.tc : Thread nD τ).loc main_arg1) (ix3 (eOf t) (⟨(ftOf t).val * 128 + k.val, by have := (ftOf t).isLt; omega⟩ : Fin 2816) j) := by
  obtain ⟨e0, e1, e2⟩ := idx_w1 t
  show V m c main_arg1 (((cfg0.win 1).blk t).view.emb (ix3 0 k j)) = _
  refine congrArg (V m c main_arg1) (funext fun a => Fin.ext ?_)
  match a with
  | ⟨0, _⟩ => show win0_1.index t (0 : Fin 3) * 1 + 1 * 0 = t.val / 44; omega
  | ⟨1, _⟩ => show win0_1.index t (1 : Fin 3) * 128 + 1 * k.val = t.val % 11 * 128 + k.val; omega
  | ⟨2, _⟩ => show win0_1.index t (2 : Fin 3) * 2048 + 1 * j.val = j.val; omega

/-- The other-half weight block: row `k` is first-projection feature `(11 + feature tile)·128 + k` of the expert. -/
theorem ublk_apply (c : Dev nD) (t : Fin cfg0.N) (k : Fin 128) (j : Fin 2048) :
    ublk m c t (ix3 0 k j) = m ((c.tc : Thread nD τ).loc main_arg1) (ix3 (eOf t) (⟨(11 + (ftOf t).val) * 128 + k.val, by have := (ftOf t).isLt; omega⟩ : Fin 2816) j) := by
  obtain ⟨e0, e1, e2⟩ := idx_w2 t
  show V m c main_arg1 (((cfg0.win 2).blk t).view.emb (ix3 0 k j)) = _
  refine congrArg (V m c main_arg1) (funext fun a => Fin.ext ?_)
  match a with
  | ⟨0, _⟩ => show win0_2.index t (0 : Fin 3) * 1 + 1 * 0 = t.val / 44; omega
  | ⟨1, _⟩ => show win0_2.index t (1 : Fin 3) * 128 + 1 * k.val = (11 + t.val % 11) * 128 + k.val; omega
  | ⟨2, _⟩ => show win0_2.index t (2 : Fin 3) * 2048 + 1 * j.val = j.val; omega

/-- The second-projection weight block: column `k` is feature `(feature tile)·128 + k` of the expert. -/
theorem dblk_apply (c : Dev nD) (t : Fin cfg0.N) (q : Fin 2048) (k : Fin 128) :
    dblk m c t (ix3 0 q k) = m ((c.tc : Thread nD τ).loc main_arg2) (ix3 (eOf t) q (⟨(ftOf t).val * 128 + k.val, by have := (ftOf t).isLt; omega⟩ : Fin 1408)) := by
  obtain ⟨e0, e1, e2⟩ := idx_w3 t
  show V m c main_arg2 (((cfg0.win 3).blk t).view.emb (ix3 0 q k)) = _
  refine congrArg (V m c main_arg2) (funext fun a => Fin.ext ?_)
  match a with
  | ⟨0, _⟩ => show win0_3.index t (0 : Fin 3) * 1 + 1 * 0 = t.val / 44; omega
  | ⟨1, _⟩ => show win0_3.index t (1 : Fin 3) * 2048 + 1 * q.val = q.val; omega
  | ⟨2, _⟩ => show win0_3.index t (2 : Fin 3) * 128 + 1 * k.val = t.val % 11 * 128 + k.val; omega

end Cert.KernelIdeal.Hand

end
-- ==== Proof.Payload.lean ====
/-
  The kernel body's arithmetic, read at an index, over the extended reals.

  One step of the body takes a 512-row tile of x, two 128-row tiles of w1 (the gate rows and the other half's rows for
  one tile of 128 features) and one tile of w2 (2048 rows, the same 128 features as columns), and adds to the accumulator
      acc[p, q] + Σ_k ((y_k · σ(y_k)) · u_k) · w2[q, k],   y_k = Σ_j x[p, j] · w1g[k, j],   u_k = Σ_j x[p, j] · w1u[k, j].
  Both products contract axis 1 of BOTH operands (A · Bᵀ); the narrowing to bf16 is the identity on extended reals, and
  the shape casts only drop a leading unit axis.
-/
import proofs.«159608_j22162031247683_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## The zero tile -/

/-- The tile written at step 0 is zero everywhere. -/
theorem pay1_apply (j : S512x2048.Idx) : k0_pay1 (F := Ideal) j = (0 : EReal) := by
  unfold k0_pay1
  rw [shapeCast_self]
  exact Ideal.ofBits_zero_f32

/-! ## The first product: [512, 2048] · [128, 2048]ᵀ

The operand indices of the dimension numbers (contract axis 1 of both, free axis 0 of both, no batch axis) at a result
index i and a contraction index q, one axis at a time. -/

theorem lhs_mm1_0 (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide), dif_pos (show (0 : Fin S512x2048.rank) ∈ dot_S512x2048_S128x2048_S512x128_1_1_0_0_n_n.lhsNonContracting by decide)]
  rfl
theorem lhs_mm1_1 (i : S512x128.Idx) (q : dot_S512x2048_S128x2048_S512x128_1_1_0_0_n_n.contr.Idx) :
    (dot_S512x2048_S128x2048_S512x128_1_1_0_0_n_n.lhsIdx i q 1).val = (q ⟨0, by decide⟩).val :=
  dot_S512x2048_S128x2048_S512x128_1_1_0_0_n_n.lhsIdx_val_of_single rfl i q
theorem rhs_mm1_0 (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide), dif_pos (show (0 : Fin S128x2048.rank) ∈ dot_S512x2048_S128x2048_S512x128_1_1_0_0_n_n.rhsNonContracting by decide)]
  rfl
theorem rhs_mm1_1 (i : S512x128.Idx) (q : dot_S512x2048_S128x2048_S512x128_1_1_0_0_n_n.contr.Idx) :
    (dot_S512x2048_S128x2048_S512x128_1_1_0_0_n_n.rhsIdx i q 1).val = (q ⟨0, by decide⟩).val :=
  dot_S512x2048_S128x2048_S512x128_1_1_0_0_n_n.rhsIdx_val_of_single rfl i q

/-- Into a zero accumulator the first product's entry (p, k) is row p of the left operand against row k of the right. -/
theorem mm1_apply {φ₁ φ₂ : FTy} (a : FVec Ideal S512x2048 φ₁) (b : FVec Ideal S128x2048 φ₂) (p : Fin 512) (k : Fin 128) :
    matmul dot_S512x2048_S128x2048_S512x128_1_1_0_0_n_n none a b (constant (F := Ideal) S512x128 .f32 0x00000000#32) (ix2 p k)
      = ∑ j : Fin 2048, a (ix2 p j) * b (ix2 k j) := by
  simp only [matmul]
  rw [Ideal.matmul_constant_zero_apply, ← Equiv.sum_comp (contrEquiv1 dot_S512x2048_S128x2048_S512x128_1_1_0_0_n_n 2048 rfl rfl).symm]
  refine Finset.sum_congr rfl fun j _ => ?_
  have hj := contrEquiv1_symm_val dot_S512x2048_S128x2048_S512x128_1_1_0_0_n_n 2048 rfl rfl j
  have el : dot_S512x2048_S128x2048_S512x128_1_1_0_0_n_n.lhsIdx (ix2 p k) ((contrEquiv1 dot_S512x2048_S128x2048_S512x128_1_1_0_0_n_n 2048 rfl rfl).symm j) = ix2 p j := funext fun c => Fin.ext (by
    match c with
    | ⟨0, _⟩ => exact lhs_mm1_0 _ _
    | ⟨1, _⟩ => exact (lhs_mm1_1 _ _).trans hj)
  have er : dot_S512x2048_S128x2048_S512x128_1_1_0_0_n_n.rhsIdx (ix2 p k) ((contrEquiv1 dot_S512x2048_S128x2048_S512x128_1_1_0_0_n_n 2048 rfl rfl).symm j) = ix2 k j := funext fun c => Fin.ext (by
    match c with
    | ⟨0, _⟩ => exact rhs_mm1_0 _ _
    | ⟨1, _⟩ => exact (rhs_mm1_1 _ _).trans hj)
  rw [el, er]

/-! ## The second product: [512, 128] · [2048, 128]ᵀ -/

theorem lhs_mm2_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_mm2_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_mm2_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_mm2_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- Into a zero accumulator the second product's entry (p, q) is row p of the left operand against row q of the right. -/
theorem mm2_apply {φ₁ φ₂ : FTy} (a : FVec Ideal S512x128 φ₁) (b : FVec Ideal S2048x128 φ₂) (p : Fin 512) (q : Fin 2048) :
    matmul dot_S512x128_S2048x128_S512x2048_1_1_0_0_n_n none a b (constant (F := Ideal) S512x2048 .f32 0x00000000#32) (ix2 p q)
      = ∑ k : Fin 128, a (ix2 p k) * b (ix2 q k) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k := funext fun c => Fin.ext (by
    match c with
    | ⟨0, _⟩ => exact lhs_mm2_0 _ _
    | ⟨1, _⟩ => exact (lhs_mm2_1 _ _).trans hk)
  have er : dot_S512x128_S2048x128_S512x2048_1_1_0_0_n_n.rhsIdx (ix2 p q) ((contrEquiv1 dot_S512x128_S2048x128_S512x2048_1_1_0_0_n_n 128 rfl rfl).symm k) = ix2 q k := funext fun c => Fin.ext (by
    match c with
    | ⟨0, _⟩ => exact rhs_mm2_0 _ _
    | ⟨1, _⟩ => exact (rhs_mm2_1 _ _).trans hk)
  rw [el, er]

/-! ## The body at an index -/

/-- One first-projection entry of the tile: row p of the x block against row k of a w1 block. -/
def dotRow (v3 : Vec Ideal S512x2048 .f32) (v : Vec Ideal S1x128x2048 .f32) (p : Fin 512) (k : Fin 128) : EReal :=
  ∑ j : Fin 2048, v3 (ix2 p j) * v (ix3 0 k j)

/-- The logistic function of a vector, at an index, is the extended reals' logistic function of the element. -/
theorem logistic_apply {s : Shape} {φ : FTy} (a : FVec Ideal s φ) (i : s.Idx) : logistic a i = Ideal.logistic (a i) := rfl

/-- The first product over the narrowed x tile and a narrowed w1 tile with its unit axis dropped, at (p, k). -/
theorem proj_apply (v3 : Vec Ideal S512x2048 .f32) (v : Vec Ideal S1x128x2048 .f32) (p : Fin 512) (k : Fin 128) :
    matmul dot_S512x2048_S128x2048_S512x128_1_1_0_0_n_n none
        (truncf .bf16 v3 bitsLt_bf16_f32 : FVec Ideal S512x2048 .bf16)
        (truncf .bf16 (shapeCast S128x2048 v shapeCasts_S1x128x2048_S128x2048 : FVec Ideal S128x2048 .f32) bitsLt_bf16_f32 : FVec Ideal S128x2048 .bf16)
        (constant (F := Ideal) S512x128 .f32 0x00000000#32) (ix2 p k)
      = dotRow v3 v p k := by
  rw [mm1_apply]
  unfold dotRow
  refine Finset.sum_congr rfl fun j _ => ?_
  rw [truncf_apply, truncf_apply, shapeCast_1ab_ab_apply]

/-- The body's result at (p, q): the accumulator plus, over the tile's 128 features, the gated activation times w2's entry. -/
theorem pay2_apply (v3 : Vec Ideal S512x2048 .f32) (v5 v8 : Vec Ideal S1x128x2048 .f32) (v17 : Vec Ideal S1x2048x128 .f32)
    (v21 : Vec Ideal S512x2048 .f32) (p : Fin 512) (q : Fin 2048) :
    k0_pay2 v3 v5 v8 v17 v21 (ix2 p q)
      = v21 (ix2 p q) + ∑ k : Fin 128, ((dotRow v3 v5 p k * Ideal.logistic (dotRow v3 v5 p k)) * dotRow v3 v8 p k) * v17 (ix3 0 q k) := by
  unfold k0_pay2
  rw [shapeCast_self, addf_apply, mm2_apply]
  refine congrArg (v21 (ix2 p q) + ·) (Finset.sum_congr rfl fun k _ => ?_)
  rw [truncf_apply, truncf_apply, mulf_apply, mulf_apply, logistic_apply, shapeCast_1ab_ab_apply, proj_apply, proj_apply]

end Cert.KernelIdeal.Pay

end
-- ==== Proof.Spec.lean ====
/-
  The grouped gated MLP as ONE function of its three argument arrays, index by index, over the extended reals.

  Tokens come in 8 groups of 2048 consecutive rows, group `e` served by expert `e`. For token row `t = e·2048 + r`:
    y[f]   = Σ_k x[t, k] · w1[e, f, k]                      (first projection, 2816 features)
    a[f]   = (y[f] · σ(y[f])) · y[1408 + f]                 (gate half through x·σ(x), times the other half; 1408 features)
    out[h] = Σ_f a[f] · w2[e, h, f]                         (second projection back to 2048)
  with σ(z) = 1 / (1 + e^(−z)) on the extended reals.
-/
import Idealize.ShloMosaic.PureOps.Ideal
import Idealize.ShloMosaic.Lib.ValueIdx

noncomputable section

namespace Cert.Spec

open Idealize.ShloMosaic Idealize.ShloMosaic.ValueIdx

/-- Token rows × hidden. -/
abbrev SX : Shape := ⟨2, ![16384, 2048]⟩
/-- Expert × first-projection feature × hidden. -/
abbrev SW1 : Shape := ⟨3, ![8, 2816, 2048]⟩
/-- Expert × hidden × second-projection feature. -/
abbrev SW2 : Shape := ⟨3, ![8, 2048, 1408]⟩

/-- Row `r` of expert `e`'s group. -/
def tok (e : Fin 8) (r : Fin 2048) : Fin 16384 := ⟨e.val * 2048 + r.val, by omega⟩
/-- The expert serving token row `t`. -/
def expertOf (t : Fin 16384) : Fin 8 := ⟨t.val / 2048, by omega⟩
/-- The position of token row `t` inside its group. -/
def rowOf (t : Fin 16384) : Fin 2048 := ⟨t.val % 2048, Nat.mod_lt _ (by omega)⟩

theorem tok_expertOf_rowOf (t : Fin 16384) : tok (expertOf t) (rowOf t) = t :=
  Fin.ext (by show t.val / 2048 * 2048 + t.val % 2048 = t.val; omega)

/-- The gate half of the first projection's features. -/
def gateRow (f : Fin 1408) : Fin 2816 := ⟨f.val, by omega⟩
/-- The other half. -/
def upRow (f : Fin 1408) : Fin 2816 := ⟨1408 + f.val, by omega⟩

/-- First projection: feature `f` of row `r` of expert `e`. -/
def fc1 (x : SX.Idx → EReal) (w1 : SW1.Idx → EReal) (e : Fin 8) (r : Fin 2048) (f : Fin 2816) : EReal :=
  ∑ k : Fin 2048, x (ix2 (tok e r) k) * w1 (ix3 e f k)

/-- The gated activation: (y·σ(y)) on the gate half, times the other half. -/
def gated (x : SX.Idx → EReal) (w1 : SW1.Idx → EReal) (e : Fin 8) (r : Fin 2048) (f : Fin 1408) : EReal :=
  (fc1 x w1 e r (gateRow f) * Ideal.logistic (fc1 x w1 e r (gateRow f))) * fc1 x w1 e r (upRow f)

/-- The result at token row `t`, hidden coordinate `h`. -/
def outAt (x : SX.Idx → EReal) (w1 : SW1.Idx → EReal) (w2 : SW2.Idx → EReal) (t : Fin 16384) (h : Fin 2048) : EReal :=
  ∑ f : Fin 1408, gated x w1 (expertOf t) (rowOf t) f * w2 (ix3 (expertOf t) h f)

/-- The whole result array. -/
def G (x : SX.Idx → EReal) (w1 : SW1.Idx → EReal) (w2 : SW2.Idx → EReal) : SX.Idx → EReal :=
  fun i => outAt x w1 w2 (i 0) (i 1)

theorem G_apply (x : SX.Idx → EReal) (w1 : SW1.Idx → EReal) (w2 : SW2.Idx → EReal) (t : Fin 16384) (h : Fin 2048) :
    G x w1 w2 (ix2 t h) = outAt x w1 w2 t h := rfl

end Cert.Spec

end
-- ==== Proof.Tiles.lean ====
/-
  The result as a running sum over feature tiles.

  The 1408 gated features split into 11 consecutive tiles of 128. The contribution of one tile to the result at a
  row and a hidden coordinate is the partial sum over that tile's features; adding the tiles' contributions one
  after the other, starting from zero, gives the whole sum over the 1408 features. Sums over the extended reals
  are sums in a commutative additive monoid, so regrouping them needs no finiteness.
-/
import proofs.«159608_j22162031247683_1_alg».proof.Proof.Spec
import Mathlib.Data.Fintype.BigOperators
import Mathlib.Algebra.BigOperators.Group.Finset.Basic

noncomputable section

namespace Cert.Spec

open Idealize.ShloMosaic Idealize.ShloMosaic.ValueIdx

/-- Feature `k` of feature tile `ft`. -/
def feat (ft : Fin 11) (k : Fin 128) : Fin 1408 := ⟨ft.val * 128 + k.val, by omega⟩

/-- One feature tile's contribution to the result at row `r` of expert `e`, hidden coordinate `q`. -/
def tileSum (x : SX.Idx → EReal) (w1 : SW1.Idx → EReal) (w2 : SW2.Idx → EReal) (e : Fin 8) (r : Fin 2048) (q : Fin 2048)
    (ft : Fin 11) : EReal :=
  ∑ k : Fin 128, gated x w1 e r (feat ft k) * w2 (ix3 e q (feat ft k))

/-- The running sum after feature tiles 0..n. -/
def accUpTo (x : SX.Idx → EReal) (w1 : SW1.Idx → EReal) (w2 : SW2.Idx → EReal) (e : Fin 8) (r q : Fin 2048) (n : ℕ) : EReal :=
  ∑ ft ∈ Finset.univ.filter (fun ft : Fin 11 => ft.val ≤ n), tileSum x w1 w2 e r q ft

/-- After the first tile the running sum is zero plus that tile's contribution. -/
theorem accUpTo_zero (x : SX.Idx → EReal) (w1 : SW1.Idx → EReal) (w2 : SW2.Idx → EReal) (e : Fin 8) (r q : Fin 2048) :
    accUpTo x w1 w2 e r q 0 = 0 + tileSum x w1 w2 e r q 0 := by
  unfold accUpTo
  have hf : Finset.univ.filter (fun ft : Fin 11 => ft.val ≤ 0) = {0} := by
    ext ft
    simp only [Finset.mem_filter, Finset.mem_univ, true_and, Finset.mem_singleton, Fin.ext_iff, Fin.val_zero]
    omega
  rw [hf, Finset.sum_singleton, zero_add]

/-- Each further tile adds its contribution to the running sum. -/
theorem accUpTo_succ (x : SX.Idx → EReal) (w1 : SW1.Idx → EReal) (w2 : SW2.Idx → EReal) (e : Fin 8) (r q : Fin 2048)
    (n : ℕ) (h : n + 1 < 11) :
    accUpTo x w1 w2 e r q (n + 1) = accUpTo x w1 w2 e r q n + tileSum x w1 w2 e r q ⟨n + 1, h⟩ := by
  unfold accUpTo
  have hf : Finset.univ.filter (fun ft : Fin 11 => ft.val ≤ n + 1)
      = insert (⟨n + 1, h⟩ : Fin 11) (Finset.univ.filter (fun ft : Fin 11 => ft.val ≤ n)) := by
    ext ft
    simp only [Finset.mem_filter, Finset.mem_univ, true_and, Finset.mem_insert, Fin.ext_iff]
    omega
  have hn : (⟨n + 1, h⟩ : Fin 11) ∉ Finset.univ.filter (fun ft : Fin 11 => ft.val ≤ n) := by
    simp only [Finset.mem_filter, Finset.mem_univ, true_and]
    omega
  rw [hf, Finset.sum_insert hn, add_comm]

/-- The expert serving row `r` of expert `e`'s group is `e`. -/
theorem expertOf_tok (e : Fin 8) (r : Fin 2048) : expertOf (tok e r) = e :=
  Fin.ext (by show (e.val * 2048 + r.val) / 2048 = e.val; omega)

/-- Row `r` of expert `e`'s group sits at position `r` in it. -/
theorem rowOf_tok (e : Fin 8) (r : Fin 2048) : rowOf (tok e r) = r :=
  Fin.ext (by show (e.val * 2048 + r.val) % 2048 = r.val; omega)

/-- A feature is a tile and a position in it: the 11 tiles of 128 cover the 1408 features exactly once. -/
def featEquiv : Fin 11 × Fin 128 ≃ Fin 1408 where
  toFun p := feat p.1 p.2
  invFun i := (⟨i.val / 128, by omega⟩, ⟨i.val % 128, Nat.mod_lt _ (by omega)⟩)
  left_inv p := by
    obtain ⟨a, b⟩ := p
    refine Prod.ext (Fin.ext ?_) (Fin.ext ?_)
    · show (a.val * 128 + b.val) / 128 = a.val; omega
    · show (a.val * 128 + b.val) % 128 = b.val; omega
  right_inv i := Fin.ext (by show i.val / 128 * 128 + i.val % 128 = i.val; omega)

/-- After the last tile the running sum is the result. -/
theorem accUpTo_ten (x : SX.Idx → EReal) (w1 : SW1.Idx → EReal) (w2 : SW2.Idx → EReal) (e : Fin 8) (r q : Fin 2048) :
    accUpTo x w1 w2 e r q 10 = outAt x w1 w2 (tok e r) q := by
  unfold accUpTo outAt
  rw [expertOf_tok, rowOf_tok]
  have hf : Finset.univ.filter (fun ft : Fin 11 => ft.val ≤ 10) = Finset.univ := by
    ext ft
    simp only [Finset.mem_filter, Finset.mem_univ, true_and, iff_true]
    omega
  rw [hf]
  unfold tileSum
  calc ∑ ft : Fin 11, ∑ k : Fin 128, gated x w1 e r (feat ft k) * w2 (ix3 e q (feat ft k))
      = ∑ p : Fin 11 × Fin 128, gated x w1 e r (feat p.1 p.2) * w2 (ix3 e q (feat p.1 p.2)) :=
        (Fintype.sum_prod_type fun p : Fin 11 × Fin 128 => gated x w1 e r (feat p.1 p.2) * w2 (ix3 e q (feat p.1 p.2))).symm
    _ = ∑ f : Fin 1408, gated x w1 e r f * w2 (ix3 e q f) :=
        Fintype.sum_equiv featEquiv _ _ fun _ => rfl

/-- The gate row of feature `feat ft k`, as a number: row `k` of the first projection's tile `ft`. -/
theorem gateRow_feat_val (ft : Fin 11) (k : Fin 128) : (gateRow (feat ft k)).val = ft.val * 128 + k.val := rfl

/-- The other half's row of feature `feat ft k`, as a number: row `k` of the first projection's tile `11 + ft`. -/
theorem upRow_feat_val (ft : Fin 11) (k : Fin 128) : (upRow (feat ft k)).val = (11 + ft.val) * 128 + k.val := by
  show 1408 + (ft.val * 128 + k.val) = (11 + ft.val) * 128 + k.val
  omega

end Cert.Spec

end
-- ==== Proof.KI.Value.lean ====
/-
  What the accumulator and the output window's buffer hold, as the grouped gated MLP of the three argument arrays.

  One point of the grid adds one feature tile's contribution to the accumulator: at a row `p` of the point's row
  tile and a hidden coordinate `q`, the body's arithmetic over the point's four input blocks is the accumulator's
  entry plus the partial sum over the tile's 128 features. So after the point at feature tile `n` the accumulator
  holds the running sum over tiles `0..n`; at a last point (tile 10) that is the whole sum over the 1408 features,
  which the body copies into the output window's buffer: the finished rows `e·2048 + (row tile)·512 + p` of the
  result. The three argument arrays are the launch contents of the token array and of the two weight arrays.
-/
import proofs.«159608_j22162031247683_1_alg».proof.Proof.KI.Pieces
import proofs.«159608_j22162031247683_1_alg».proof.Proof.Payload
import proofs.«159608_j22162031247683_1_alg».proof.Proof.Tiles
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## One point adds one feature tile -/

/-- Row `p` of the token block against row `k` of the gate-half weight block is the first projection's gate feature
    `k` of the point's feature tile, at the point's expert and row. -/
theorem dotRow_gate (c : Dev nD) (t : Fin cfg0.N) (p : Fin 512) (k : Fin 128) :
    dotRow (xblk m c t) (gblk m c t) p k
      = Cert.Spec.fc1 (m ((c.tc : Thread nD τ).loc main_arg0)) (m ((c.tc : Thread nD τ).loc main_arg1)) (eOf t) (rowIn t p) (Cert.Spec.gateRow (Cert.Spec.feat (ftOf t) k)) := by
  unfold dotRow Cert.Spec.fc1
  refine Finset.sum_congr rfl fun j _ => ?_
  have hx : xblk m c t (ix2 p j) = m ((c.tc : Thread nD τ).loc main_arg0) (ix2 (Cert.Spec.tok (eOf t) (rowIn t p)) j) :=
    (xblk_apply m c t p j).trans (congrArg (fun i : Fin 16384 => m ((c.tc : Thread nD τ).loc main_arg0) (ix2 i j)) (Fin.ext rfl))
  have hg : gblk m c t (ix3 0 k j) = m ((c.tc : Thread nD τ).loc main_arg1) (ix3 (eOf t) (Cert.Spec.gateRow (Cert.Spec.feat (ftOf t) k)) j) :=
    (gblk_apply m c t k j).trans (congrArg (fun i : Fin 2816 => m ((c.tc : Thread nD τ).loc main_arg1) (ix3 (eOf t) i j)) (Fin.ext rfl))
  exact congrArg₂ (· * ·) hx hg

/-- The same against the other-half weight block: the first projection's other-half feature. -/
theorem dotRow_up (c : Dev nD) (t : Fin cfg0.N) (p : Fin 512) (k : Fin 128) :
    dotRow (xblk m c t) (ublk m c t) p k
      = Cert.Spec.fc1 (m ((c.tc : Thread nD τ).loc main_arg0)) (m ((c.tc : Thread nD τ).loc main_arg1)) (eOf t) (rowIn t p) (Cert.Spec.upRow (Cert.Spec.feat (ftOf t) k)) := by
  unfold dotRow Cert.Spec.fc1
  refine Finset.sum_congr rfl fun j _ => ?_
  have hx : xblk m c t (ix2 p j) = m ((c.tc : Thread nD τ).loc main_arg0) (ix2 (Cert.Spec.tok (eOf t) (rowIn t p)) j) :=
    (xblk_apply m c t p j).trans (congrArg (fun i : Fin 16384 => m ((c.tc : Thread nD τ).loc main_arg0) (ix2 i j)) (Fin.ext rfl))
  have hu : ublk m c t (ix3 0 k j) = m ((c.tc : Thread nD τ).loc main_arg1) (ix3 (eOf t) (Cert.Spec.upRow (Cert.Spec.feat (ftOf t) k)) j) :=
    (ublk_apply m c t k j).trans (congrArg (fun i : Fin 2816 => m ((c.tc : Thread nD τ).loc main_arg1) (ix3 (eOf t) i j))
      (Fin.ext (Cert.Spec.upRow_feat_val (ftOf t) k).symm))
  exact congrArg₂ (· * ·) hx hu

/-- Column `k` of the second-projection weight block is feature `k` of the point's feature tile. -/
theorem dblk_feat (c : Dev nD) (t : Fin cfg0.N) (q : Fin 2048) (k : Fin 128) :
    dblk m c t (ix3 0 q k) = m ((c.tc : Thread nD τ).loc main_arg2) (ix3 (eOf t) q (Cert.Spec.feat (ftOf t) k)) :=
  (dblk_apply m c t q k).trans (congrArg (fun i : Fin 1408 => m ((c.tc : Thread nD τ).loc main_arg2) (ix3 (eOf t) q i)) (Fin.ext rfl))

/-- ONE STEP: the body's arithmetic at point `t`, over any accumulator contents, adds the point's feature tile's
    contribution at every row of the row tile and every hidden coordinate. -/
theorem step (c : Dev nD) (t : Fin cfg0.N) (acc : Vec Ideal S512x2048 .f32) (p : Fin 512) (q : Fin 2048) :
    k0_pay2 (xblk m c t) (gblk m c t) (ublk m c t) (dblk m c t) acc (ix2 p q)
      = acc (ix2 p q) + Cert.Spec.tileSum (m ((c.tc : Thread nD τ).loc main_arg0)) (m ((c.tc : Thread nD τ).loc main_arg1)) (m ((c.tc : Thread nD τ).loc main_arg2)) (eOf t) (rowIn t p) q (ftOf t) := by
  refine (pay2_apply (xblk m c t) (gblk m c t) (ublk m c t) (dblk m c t) acc p q).trans ?_
  unfold Cert.Spec.tileSum Cert.Spec.gated
  refine congrArg (acc (ix2 p q) + ·) (Finset.sum_congr rfl fun k _ => ?_)
  rw [dotRow_gate m c t p k, dotRow_up m c t p k, dblk_feat m c t q k]

/-! ## The accumulator after each point -/

/-- After point `t` the accumulator holds the running sum over the feature tiles up to `t`'s. -/
theorem acc_eq_aux (c : Dev nD) : ∀ (n : ℕ) (t : Fin cfg0.N), t.val = n → ∀ (p : Fin 512) (q : Fin 2048),
    (outsAt0 (F := Ideal) m c t.val t.isLt).2 (ix2 p q)
      = Cert.Spec.accUpTo (m ((c.tc : Thread nD τ).loc main_arg0)) (m ((c.tc : Thread nD τ).loc main_arg1)) (m ((c.tc : Thread nD τ).loc main_arg2)) (eOf t) (rowIn t p) q (ftOf t).val := by
  intro n
  induction n using Nat.strong_induction_on with
  | _ n ih =>
    intro t htn p q
    have hN : t.val < 352 := lt_N t
    by_cases h0 : t.val % 11 = 0
    · -- a FIRST point: zero plus tile 0
      have h1 : ¬ t.val % 11 = 10 := by omega
      rw [outsAt0_A m c t h0 h1]
      dsimp only
      refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
      refine (step m c t (k0_pay1 (F := Ideal)) p q).trans ?_
      have hft : ftOf t = 0 := Fin.ext h0
      rw [hft, pay1_apply]
      exact (Cert.Spec.accUpTo_zero (m ((c.tc : Thread nD τ).loc main_arg0)) (m ((c.tc : Thread nD τ).loc main_arg1)) (m ((c.tc : Thread nD τ).loc main_arg2)) (eOf t) (rowIn t p) q).symm
    · -- a later point of the same row tile: the point before, plus this tile
      have hlt' : t.val - 1 < cfg0.N := Nat.lt_of_le_of_lt (Nat.sub_le _ _) t.isLt
      have ih' := ih (t.val - 1) (by omega) ⟨t.val - 1, hlt'⟩ rfl p q
      have he : eOf ⟨t.val - 1, hlt'⟩ = eOf t := Fin.ext (by show (t.val - 1) / 44 = t.val / 44; omega)
      have hr : rowIn ⟨t.val - 1, hlt'⟩ p = rowIn t p :=
        Fin.ext (by show (t.val - 1) / 11 % 4 * 512 + p.val = t.val / 11 % 4 * 512 + p.val; omega)
      have hft : (ftOf t).val = (ftOf ⟨t.val - 1, hlt'⟩).val + 1 := by show t.val % 11 = (t.val - 1) % 11 + 1; omega
      have hlt : (ftOf ⟨t.val - 1, hlt'⟩).val + 1 < 11 := by rw [← hft]; exact (ftOf t).isLt
      have hfe : ftOf t = ⟨(ftOf ⟨t.val - 1, hlt'⟩).val + 1, hlt⟩ := Fin.ext hft
      rw [he, hr] at ih'
      have hsum : (outsAt0 (F := Ideal) m c (t.val - 1) hlt').2 (ix2 p q)
            + Cert.Spec.tileSum (m ((c.tc : Thread nD τ).loc main_arg0)) (m ((c.tc : Thread nD τ).loc main_arg1)) (m ((c.tc : Thread nD τ).loc main_arg2)) (eOf t) (rowIn t p) q (ftOf t)
          = Cert.Spec.accUpTo (m ((c.tc : Thread nD τ).loc main_arg0)) (m ((c.tc : Thread nD τ).loc main_arg1)) (m ((c.tc : Thread nD τ).loc main_arg2)) (eOf t) (rowIn t p) q (ftOf t).val := by
        rw [show (outsAt0 (F := Ideal) m c (t.val - 1) hlt').2 (ix2 p q) = _ from ih', hfe]
        exact (Cert.Spec.accUpTo_succ (m ((c.tc : Thread nD τ).loc main_arg0)) (m ((c.tc : Thread nD τ).loc main_arg1)) (m ((c.tc : Thread nD τ).loc main_arg2)) (eOf t) (rowIn t p) q (ftOf ⟨t.val - 1, hlt'⟩).val hlt).symm
      by_cases h1 : t.val % 11 = 10
      · rw [outsAt0_C m c t h0 h1]
        dsimp only
        refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
        refine (step m c t (outsAt0 m c (t.val - 1) (Nat.lt_of_le_of_lt (Nat.sub_le _ _) t.isLt)).2 p q).trans ?_
        exact hsum
      · rw [outsAt0_B m c t h0 h1]
        dsimp only
        refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
        refine (step m c t (outsAt0 m c (t.val - 1) (Nat.lt_of_le_of_lt (Nat.sub_le _ _) t.isLt)).2 p q).trans ?_
        exact hsum

/-- After point `t` the accumulator holds the running sum over the feature tiles up to `t`'s. -/
theorem acc_eq (c : Dev nD) (t : Fin cfg0.N) (p : Fin 512) (q : Fin 2048) :
    (outsAt0 (F := Ideal) m c t.val t.isLt).2 (ix2 p q)
      = Cert.Spec.accUpTo (m ((c.tc : Thread nD τ).loc main_arg0)) (m ((c.tc : Thread nD τ).loc main_arg1)) (m ((c.tc : Thread nD τ).loc main_arg2)) (eOf t) (rowIn t p) q (ftOf t).val :=
  acc_eq_aux m c t.val t rfl p q

/-! ## The output window's buffer at a last point -/

/-- At a LAST point the output window's buffer holds the finished rows. -/
theorem out_last (c : Dev nD) (t : Fin cfg0.N) (h : t.val % 11 = 10) (p : Fin 512) (q : Fin 2048) :
    (outsAt0 (F := Ideal) m c t.val t.isLt).1 (ix2 p q)
      = Cert.Spec.outAt (m ((c.tc : Thread nD τ).loc main_arg0)) (m ((c.tc : Thread nD τ).loc main_arg1)) (m ((c.tc : Thread nD τ).loc main_arg2)) (Cert.Spec.tok (eOf t) (rowIn t p)) q := by
  have h0 : ¬ t.val % 11 = 0 := by omega
  have hacc := acc_eq m c t p q
  rw [outsAt0_C m c t h0 h] at hacc ⊢
  dsimp only at hacc ⊢
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk m c 0 t) (iblk m c 1 t) (iblk m c 2 t) (iblk m c 3 t) (outsAt0 m c (t.val - 1) (Nat.lt_of_le_of_lt (Nat.sub_le _ _) t.isLt)).2) (ix2 p q)).trans ?_
  refine ((congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h0 ((hcond0_0 t).mp h')) ((hcond0_1 t).mpr h) (iblk m c 0 t) (iblk m c 1 t) (iblk m c 2 t) (iblk m c 3 t) (outsAt0 m c (t.val - 1) (Nat.lt_of_le_of_lt (Nat.sub_le _ _) t.isLt)).2) (ix2 p q)).symm.trans hacc).trans ?_
  have hft : (ftOf t).val = 10 := h
  rw [hft]
  exact Cert.Spec.accUpTo_ten (m ((c.tc : Thread nD τ).loc main_arg0)) (m ((c.tc : Thread nD τ).loc main_arg1)) (m ((c.tc : Thread nD τ).loc main_arg2)) (eOf t) (rowIn t p) q

end Cert.KernelIdeal.Hand

end
-- ==== Proof.KI.Final.lean ====
/-
  From the finished rows at every LAST point to the whole result array.

  The output window's block at a point t is rows (t / 11)·512 .. (t / 11)·512 + 511 of the result array, all 2048
  columns; it is written back at the LAST points (feature tile 10), one for each of the 32 row tiles, and those 32
  blocks tile the 16384 rows. So if what each LAST point leaves in the window's buffer is its rows of the
  specification's result, the array ends holding the specification's result.
-/
import proofs.«159608_j22162031247683_1_alg».proof.Proof.KI.Pieces
import proofs.«159608_j22162031247683_1_alg».proof.Proof.Tiles
import proofs.«159608_j22162031247683_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The three argument arrays as the region finds them, at the specification's types. -/
abbrev xArr (c : Dev nD) : Cert.Spec.SX.Idx → EReal := m ((c.tc : Thread nD τ).loc main_arg0)
abbrev w1Arr (c : Dev nD) : Cert.Spec.SW1.Idx → EReal := m ((c.tc : Thread nD τ).loc main_arg1)
abbrev w2Arr (c : Dev nD) : Cert.Spec.SW2.Idx → EReal := m ((c.tc : Thread nD τ).loc main_arg2)

/-- The output window's block index in closed form, decided over the grid: (expert · 4 + row tile, 0). -/
private theorem idx_w4 : ∀ t : Fin cfg0.N, win0_4.index t (0 : Fin 2) = t.val / 11 ∧ win0_4.index t (1 : Fin 2) = 0 :=
  (by decide +kernel : ∀ t : Fin grid0.N, _)

/-- Row p of a point's row tile is row (t / 11)·512 + p of the array. -/
private theorem tok_row (t : Fin cfg0.N) (p : Fin 512) :
    Cert.Spec.tok (eOf t) (rowIn t p) = (⟨t.val / 11 * 512 + p.val, by have := lt_N t; omega⟩ : Fin 16384) :=
  Fin.ext (by show t.val / 44 * 2048 + (t.val / 11 % 4 * 512 + p.val) = t.val / 11 * 512 + p.val; omega)

/-- The output window's block at point t, read at (p, q), is the array at row (t / 11)·512 + p, column q. -/
private theorem oblk_apply (t : Fin cfg0.N) (Gf : S16384x2048.Idx → EReal) (p : Fin 512) (q : Fin 2048) :
    ((cfg0.win 4).blk t).view.read (Elt Ideal) Gf (ix2 p q)
      = Gf (ix2 (⟨t.val / 11 * 512 + p.val, by have := lt_N t; omega⟩ : Fin 16384) q) := by
  obtain ⟨e0, e1⟩ := idx_w4 t
  show Gf (((cfg0.win 4).blk t).view.emb (ix2 p q)) = _
  refine congrArg Gf (funext fun a => Fin.ext ?_)
  match a with
  | ⟨0, _⟩ => show win0_4.index t (0 : Fin 2) * 512 + 1 * p.val = t.val / 11 * 512 + p.val; omega
  | ⟨1, _⟩ => show win0_4.index t (1 : Fin 2) * 2048 + 1 * q.val = q.val; omega

/-- Contents of the output window's buffer that agree, entry by entry, with the point's rows of an array are written
    back as the point's block of that array. -/
private theorem cut4_eq_of (t : Fin cfg0.N) (X : Vec Ideal S512x2048 .f32) (Gf : S16384x2048.Idx → EReal)
    (h : ∀ (p : Fin 512) (q : Fin 2048), X (ix2 p q) = Gf (ix2 (⟨t.val / 11 * 512 + p.val, by have := lt_N t; omega⟩ : Fin 16384) q)) :
    (cfg0.win 4).cut (grid0.coords t) X = ((cfg0.win 4).blk t).view.read (Elt Ideal) Gf := by
  refine funext fun (y : S512x2048.Idx) => ?_
  obtain ⟨p, q, rfl⟩ : ∃ (p : Fin 512) (q : Fin 2048), y = ix2 p q := ⟨y 0, y 1, eq_ix2 y⟩
  exact (h p q).trans (oblk_apply t Gf p q).symm

/-- WHAT A LAST POINT WRITES BACK is its block of the specification's result. -/
private theorem flushed4_eq (c : Dev nD)
    (hlast : ∀ (t : Fin cfg0.N), t.val % 11 = 10 → ∀ (p : Fin 512) (q : Fin 2048),
      (outsAt0 (F := Ideal) m c t.val t.isLt).1 (ix2 p q) = Cert.Spec.outAt (xArr m c) (w1Arr m c) (w2Arr m c) (Cert.Spec.tok (eOf t) (rowIn t p)) q)
    (t : Fin cfg0.N) (hf : (cfg0.win 4).flush t = true) :
    (dats (F := Ideal) m 0 c).flushed 4 t
      = ((cfg0.win 4).blk t).view.read (Elt Ideal) (Cert.Spec.G (xArr m c) (w1Arr m c) (w2Arr m c)) := by
  have h10 : t.val % 11 = 10 := (flush0_4 t).mp hf
  show (cfg0.win 4).cut (grid0.coords t) ((dats m 0 c).after 4 t) = _
  rw [after0_4]
  exact cut4_eq_of t _ _ fun p q => by rw [hlast t h10 p q, Cert.Spec.G_apply, tok_row]

/-- An index of the array is in a point's block iff each coordinate is in the block's range on its axis. -/
private theorem mem_blk4 (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0).slice (win0_4.rect t)).set ↔ _
  rw [View.set_slice_whole, Rect.mem_set_unit]
  exact Iff.rfl

/-- From the finished rows at every LAST point to the whole result array. -/
theorem final_of_out_last (c : Dev nD)
    (hlast : ∀ (t : Fin cfg0.N), t.val % 11 = 10 → ∀ (p : Fin 512) (q : Fin 2048),
      (outsAt0 (F := Ideal) m c t.val t.isLt).1 (ix2 p q) = Cert.Spec.outAt (xArr m c) (w1Arr m c) (w2Arr m c) (Cert.Spec.tok (eOf t) (rowIn t p)) q) :
    (dats (F := Ideal) m 0 c).arrAt 4 cfg0.N = Cert.Spec.G (xArr m c) (w1Arr m c) (w2Arr m c) :=
  (dats (F := Ideal) m 0 c).arrAt_eq_of_cover 4 (Cert.Spec.G (xArr m c) (w1Arr m c) (w2Arr m c)) (flushed4_eq m c hlast) fun i => by
    have h0 : (i 0).val < 16384 := (i 0).isLt
    have h1 : (i 1).val < 2048 := (i 1).isLt
    have hb : (i 0).val / 512 * 11 + 10 < cfg0.N := lt_of_lt_of_eq (by omega : (i 0).val / 512 * 11 + 10 < 352) (N_0).symm
    refine ⟨⟨(i 0).val / 512 * 11 + 10, hb⟩, (flush0_4 _).mpr (by show ((i 0).val / 512 * 11 + 10) % 11 = 10; omega), ?_⟩
    rw [mem_blk4]
    have e0 : win0_4.index ⟨(i 0).val / 512 * 11 + 10, hb⟩ (0 : Fin 2) = ((i 0).val / 512 * 11 + 10) / 11 := (idx_w4 _).1
    have e1 : win0_4.index ⟨(i 0).val / 512 * 11 + 10, hb⟩ (1 : Fin 2) = 0 := (idx_w4 _).2
    intro a
    match a with
    | ⟨0, _⟩ =>
      show win0_4.index ⟨(i 0).val / 512 * 11 + 10, hb⟩ (0 : Fin 2) * 512 ≤ (i 0).val ∧ (i 0).val < win0_4.index ⟨(i 0).val / 512 * 11 + 10, hb⟩ (0 : Fin 2) * 512 + 512
      omega
    | ⟨1, _⟩ =>
      show win0_4.index ⟨(i 0).val / 512 * 11 + 10, hb⟩ (1 : Fin 2) * 2048 ≤ (i 1).val ∧ (i 1).val < win0_4.index ⟨(i 0).val / 512 * 11 + 10, hb⟩ (1 : Fin 2) * 2048 + 2048
      omega

end Cert.KernelIdeal.Hand

end
-- ==== Proof.RefValue.lean ====
/-
  The reference's result is the specification.

  The reference regroups the 16384 token rows as 8 groups of 2048, contracts each group with its expert's first
  matrix over the 2048 hidden coordinates, takes the first 1408 features through y · (1 / (1 + e^(−y))), multiplies
  by the last 1408 features, contracts with the expert's second matrix over the 1408 features, and flattens the
  groups back to rows. Read stage by stage at an index, each stage is the matching piece of the specification:
  the regrouping sends (e, r) to row e·2048 + r, the two feature halves are the rows f and 1408 + f of the first
  projection, and 1 / (1 + e^(−y)) with the constant 1 is the logistic function. Both sides are the same sums in the
  same order, so no property of the extended reals beyond the value of the constant is used.
-/
import proofs.«159608_j22162031247683_1_alg».proof.Proof.Gen.ReferenceIdeal.Read
import proofs.«159608_j22162031247683_1_alg».proof.Proof.Spec
import Idealize.ShloMosaic.PureOps.Ideal
import Idealize.ShloMosaic.Lib.ValueIdx

noncomputable section

namespace Cert.RefValue

open Idealize.ShloMosaic Idealize.ShloMosaic.ValueIdx Cert.ReferenceIdeal Cert.ReferenceIdeal.Read Cert.Spec

/-! ## The index maps of the stages, on coordinates -/

/-- Flattening the groups back to rows: row t, hidden h comes from group t / 2048, position t % 2048. -/
theorem idx_flatten (t : Fin 16384) (h : Fin 2048) :
    idx_main_v7 (ix2 t h) = ix3 (expertOf t) (rowOf t) h :=
  funext fun a => Fin.ext (by
    have ht := t.isLt
    have hh := h.isLt
    match a with
    | ⟨0, _⟩ => show (t.val * 2048 + h.val) / 4194304 = t.val / 2048; omega
    | ⟨1, _⟩ => show (t.val * 2048 + h.val) / 2048 % 2048 = t.val % 2048; omega
    | ⟨2, _⟩ => show (t.val * 2048 + h.val) % 2048 = h.val; omega)

/-- Regrouping the rows: position r of group e, hidden k is row e·2048 + r. -/
theorem idx_regroup (e : Fin 8) (r : Fin 2048) (k : Fin 2048) :
    idx_main_v0 (ix3 e r k) = ix2 (tok e r) k :=
  funext fun a => Fin.ext (by
    have he := e.isLt
    have hr := r.isLt
    have hk := k.isLt
    match a with
    | ⟨0, _⟩ => show ((e.val * 2048 + r.val) * 2048 + k.val) / 2048 = e.val * 2048 + r.val; omega
    | ⟨1, _⟩ => show ((e.val * 2048 + r.val) * 2048 + k.val) % 2048 = k.val; omega)

/-- The first contraction's left operand at (e, r, ·): the regrouped rows at (e, r, k). -/
theorem lidx_first (e : Fin 8) (r : Fin 2048) (g : Fin 2816) (k : Fin 2048) :
    lidx_main_v1 (ix3 e r g) k = ix3 e r k :=
  funext fun a => Fin.ext (by
    match a with
    | ⟨0, _⟩ => rfl
    | ⟨1, _⟩ => rfl
    | ⟨2, _⟩ => rfl)

/-- The first contraction's right operand at (e, ·, g): the first matrix at (e, g, k). -/
theorem ridx_first (e : Fin 8) (r : Fin 2048) (g : Fin 2816) (k : Fin 2048) :
    ridx_main_v1 (ix3 e r g) k = ix3 e g k :=
  funext fun a => Fin.ext (by
    match a with
    | ⟨0, _⟩ => rfl
    | ⟨1, _⟩ => rfl
    | ⟨2, _⟩ => rfl)

/-- The first half of the features: feature f of the half is feature f of the projection. -/
theorem idx_gate (e : Fin 8) (r : Fin 2048) (f : Fin 1408) :
    idx_main_v2 (ix3 e r f) = ix3 e r (gateRow f) :=
  funext fun a => Fin.ext (by
    match a with
    | ⟨0, _⟩ => rfl
    | ⟨1, _⟩ => rfl
    | ⟨2, _⟩ => rfl)

/-- The second half of the features: feature f of the half is feature 1408 + f of the projection. -/
theorem idx_up (e : Fin 8) (r : Fin 2048) (f : Fin 1408) :
    idx_main_v3 (ix3 e r f) = ix3 e r (upRow f) :=
  funext fun a => Fin.ext (by
    match a with
    | ⟨0, _⟩ => rfl
    | ⟨1, _⟩ => rfl
    | ⟨2, _⟩ => rfl)

/-- The second contraction's left operand at (e, r, ·): the gated activation at (e, r, f). -/
theorem lidx_second (e : Fin 8) (r : Fin 2048) (h : Fin 2048) (f : Fin 1408) :
    lidx_main_v6 (ix3 e r h) f = ix3 e r f :=
  funext fun a => Fin.ext (by
    match a with
    | ⟨0, _⟩ => rfl
    | ⟨1, _⟩ => rfl
    | ⟨2, _⟩ => rfl)

/-- The second contraction's right operand at (e, ·, h): the second matrix at (e, h, f). -/
theorem ridx_second (e : Fin 8) (r : Fin 2048) (h : Fin 2048) (f : Fin 1408) :
    ridx_main_v6 (ix3 e r h) f = ix3 e h f :=
  funext fun a => Fin.ext (by
    match a with
    | ⟨0, _⟩ => rfl
    | ⟨1, _⟩ => rfl
    | ⟨2, _⟩ => rfl)

/-! ## The constant -/

/-- The word 0x3F800000 is the number one. -/
theorem one_word : Ideal.ofBits .f32 0x3F800000#32 = 1 := by
  simp [Ideal.ofBits, Ideal.ieee, -EReal.coe_mul]; norm_num

/-! ## The stages at an index -/

section
variable (x0 : (⟨S16384x2048, .f32⟩ : BufTy).Contents (Elt Ideal))
  (x1 : (⟨S8x2816x2048, .f32⟩ : BufTy).Contents (Elt Ideal))
  (x2 : (⟨S8x2048x1408, .f32⟩ : BufTy).Contents (Elt Ideal))

/-- The regrouped rows. -/
theorem regrouped_at (e : Fin 8) (r : Fin 2048) (k : Fin 2048) :
    val_main_v0 (F := Ideal) x0 (ix3 e r k) = x0 (ix2 (tok e r) k) := by
  rw [val_main_v0_apply, idx_regroup]

/-- The first contraction is the first projection. -/
theorem first_at (e : Fin 8) (r : Fin 2048) (g : Fin 2816) :
    val_main_v1 (F := Ideal) x0 x1 (ix3 e r g) = fc1 x0 x1 e r g := by
  rw [val_main_v1_apply]
  unfold fc1
  refine Finset.sum_congr rfl fun k _ => ?_
  rw [lidx_first, ridx_first, regrouped_at]

/-- The first half of its features. -/
theorem gate_at (e : Fin 8) (r : Fin 2048) (f : Fin 1408) :
    val_main_v2 (F := Ideal) x0 x1 (ix3 e r f) = fc1 x0 x1 e r (gateRow f) := by
  rw [val_main_v2_apply, idx_gate, first_at]

/-- The second half of its features. -/
theorem up_at (e : Fin 8) (r : Fin 2048) (f : Fin 1408) :
    val_main_v3 (F := Ideal) x0 x1 (ix3 e r f) = fc1 x0 x1 e r (upRow f) := by
  rw [val_main_v3_apply, idx_up, first_at]

/-- y · (1 / (1 + e^(−y))) on the first half is y times the logistic function of y. -/
theorem silu_at (e : Fin 8) (r : Fin 2048) (f : Fin 1408) :
    val_main_v4 (F := Ideal) x0 x1 (ix3 e r f)
      = fc1 x0 x1 e r (gateRow f) * Ideal.logistic (fc1 x0 x1 e r (gateRow f)) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, gate_at]
  simp only [Ideal.mulf_def, Ideal.addf_def, Ideal.hostDivf_def, Ideal.hostNegf_def, Ideal.negf_def,
    Ideal.hostUnary_exp_def, Ideal.ofBits_def, one_word]
  rfl

/-- The gated activation. -/
theorem gated_at (e : Fin 8) (r : Fin 2048) (f : Fin 1408) :
    val_main_v5 (F := Ideal) x0 x1 (ix3 e r f) = gated x0 x1 e r f := by
  rw [val_main_v5_apply, silu_at, up_at, Ideal.mulf_def]
  rfl

/-- The second contraction. -/
theorem second_at (e : Fin 8) (r : Fin 2048) (h : Fin 2048) :
    val_main_v6 (F := Ideal) x0 x1 x2 (ix3 e r h) = ∑ f : Fin 1408, gated x0 x1 e r f * x2 (ix3 e h f) := by
  rw [val_main_v6_apply]
  refine Finset.sum_congr rfl fun f _ => ?_
  rw [lidx_second, ridx_second, gated_at]

end

/-! ## The reference is the specification -/

/-- The reference's result, as a function of its three arguments, is the specification. -/
theorem ref_eq (x0 : (⟨Cert.ReferenceIdeal.S16384x2048, .f32⟩ : BufTy).Contents (Elt Ideal))
    (x1 : (⟨Cert.ReferenceIdeal.S8x2816x2048, .f32⟩ : BufTy).Contents (Elt Ideal))
    (x2 : (⟨Cert.ReferenceIdeal.S8x2048x1408, .f32⟩ : BufTy).Contents (Elt Ideal)) :
    Cert.ReferenceIdeal.Read.val_main_v7 (F := Ideal) x0 x1 x2 = Cert.Spec.G x0 x1 x2 := by
  funext i
  obtain ⟨t, h, rfl⟩ : ∃ (t : Fin 16384) (h : Fin 2048), i = ix2 t h := ⟨i 0, i 1, eq_ix2 i⟩
  rw [val_main_v7_apply, idx_flatten, second_at, G_apply]
  rfl

end Cert.RefValue

end
-- ==== Proof.lean ====
/-
  A grouped gated MLP over 8 experts: for each token row (the rows come in 8 groups of 2048, one group per expert)
  out = ((y₁ · σ(y₁)) ⊙ y₂) · W₂ᵀ  with  [y₁ | y₂] = x · W₁ᵀ  and  σ(z) = 1 / (1 + e^(−z)).

  The kernel walks a grid of 8 experts × 4 row tiles × 11 feature tiles. At every point it forms one tile of 128
  features of y₁ and of y₂ (two products of the 512-row token block with 128 rows of W₁ each — the two weight
  blocks are two windows on the ONE array W₁), gates them, multiplies by the matching 128 columns of W₂ and adds the
  512 × 2048 result to an accumulator it zeroed at feature tile 0; at feature tile 10 the accumulator is the finished
  block of 512 result rows and is written out. The reference computes the two projections whole. Over the extended
  reals the two agree because a sum over 1408 features is the sum of its 11 tiles of 128, added in any order — only
  commutativity and associativity of addition, so the inputs' finiteness is never used; the product into a zero
  accumulator is the plain sum, a change of float format is the identity, and the kernel's σ and the reference's
  1 / (1 + e^(−z)) are one function.

  Frames: the kernel's two programs run through the pipeline's launch for input windows that share an array, the
  shared array dealt to its two windows half and half; the reference's frame is its run with the result dropped.
  `preserves` has nothing to state: the idealization rewrote no operation.
-/
import proofs.«159608_j22162031247683_1_alg».proof.Defs
import proofs.«159608_j22162031247683_1_alg».proof.Proof.Gen.Kernel
import proofs.«159608_j22162031247683_1_alg».proof.Proof.Gen.KernelIdeal
import proofs.«159608_j22162031247683_1_alg».proof.Proof.Gen.ReferenceIdeal
import proofs.«159608_j22162031247683_1_alg».proof.Proof.Gen.Pre_finite_inputs
import proofs.«159608_j22162031247683_1_alg».proof.Proof.Gen.ReferenceIdeal.Run
import proofs.«159608_j22162031247683_1_alg».proof.Proof.Gen.ReferenceIdeal.Read
import proofs.«159608_j22162031247683_1_alg».proof.Proof.K.Launch
import proofs.«159608_j22162031247683_1_alg».proof.Proof.KI.Launch
import proofs.«159608_j22162031247683_1_alg».proof.Proof.KI.Value
import proofs.«159608_j22162031247683_1_alg».proof.Proof.KI.Final
import proofs.«159608_j22162031247683_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere, and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at the one function `Spec.G` of the argument arrays: the
    kernel's by the accumulation over feature tiles, the reference's operation by operation. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.final_of_out_last m c
          (fun t ht p q => Cert.KernelIdeal.Hand.out_last m c t ht p q)), (h c).2⟩)
      (Cert.KernelIdeal.Hand.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.RefValue.ref_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
